-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S8000000 : Shape := ⟨1, ![8000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S8000000 : S_.BroadcastsInDim S8000000 (![] : Fin 0 → Fin S8000000.rank)
  reducesTo_S8000000_S_d0 : S8000000.ReducesTo [0] S_
  reducesTo_S_S_d : S_.ReducesTo [] S_

variable [Facts]

def fn_part1 {F : FTy → Type} [FloatOps F] (main_arg4 : FVec F S8000000 .f32) (main_arg7 : FVec F S_ .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S8000000 .f32 := Host.absf main_arg4
  let main_cst_6 : FVec F S_ .f32 := constant S_ .f32 0x7F800000#32
  let main_v20 : FVec F S8000000 .f32 := broadcastInDim S8000000 ![] bcast_S_S8000000 main_cst_6
  let main_v21 : IVec S8000000 1 := cmpf .olt main_v19 main_v20
  let main_c_7 : IVec S_ 1 := constantI S_ 1 1#1
  let main_v22 : IVec S_ 1 := (fun x v => Host.reduce IntOp.andi x v reducesTo_S8000000_S_d0 h_S_) main_v21 main_c_7
  let main_v23 : IVec S_ 1 := andi main_v18 main_v22
  let main_v24 : FVec F S_ .f32 := Host.absf main_arg7
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S1000000 .f32) (main_arg1 : FVec F S1000000 .f32) (main_arg2 : FVec F S1000000 .f32) (main_arg3 : FVec F S1000000 .f32) (main_arg4 : FVec F S8000000 .f32) (main_arg5 : IVec S8000000 32) (main_arg6 : IVec S8000000 32) (main_arg7 : FVec F S_ .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg3
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg4 main_arg7 main_v13 main_v16
-- ==== Kernel.lean ====
abbrev S1000000 : Shape := ⟨1, ![1000000]⟩
abbrev S8000000 : Shape := ⟨1, ![8000000]⟩
abbrev S_ : Shape := ⟨0, ![]⟩
abbrev S8000000x1 : Shape := ⟨2, ![8000000, 1]⟩
abbrev S8192000 : Shape := ⟨1, ![8192000]⟩
abbrev S64000x128 : Shape := ⟨2, ![64000, 128]⟩
abbrev S4000x128 : Shape := ⟨2, ![4000, 128]⟩

abbrev nBuf : Space → Nat
  | .hbm => 86
  | .vmem => 14
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000000, .f32⟩
  | .hbm, ⟨3, _⟩ => ⟨S1000000, .f32⟩
  | .hbm, ⟨4, _⟩ => ⟨S8000000, .f32⟩
  | .hbm, ⟨5, _⟩ => ⟨S8000000, .i32⟩
  | .hbm, ⟨6, _⟩ => ⟨S8000000, .i32⟩
  | .hbm, ⟨7, _⟩ => ⟨S_, .f32⟩
  | .hbm, ⟨8, _⟩ => ⟨S_, .i32⟩
  | .hbm, ⟨9, _⟩ => ⟨S8000000, .i32⟩
  | .hbm, ⟨10, _⟩ => ⟨S8000000, .i1⟩
  | .hbm, ⟨11, _⟩ => ⟨S_, .i32⟩
  | .hbm, ⟨12, _⟩ => ⟨S8000000, .i32⟩
  | .hbm, ⟨13, _⟩ => ⟨S8000000, .i32⟩
  | .hbm, ⟨14, _⟩ => ⟨S8000000, .i32⟩
  | .hbm, ⟨15, _⟩ => ⟨S8000000x1, .i32⟩
  | .hbm, ⟨16, _⟩ => ⟨S8000000, .f32⟩
  | .hbm, ⟨17, _⟩ => ⟨S_, .i32⟩
  | .hbm, ⟨18, _⟩ => ⟨S8000000, .i32⟩
  | .hbm, ⟨19, _⟩ => ⟨S8000000, .i1⟩
  | .hbm, ⟨20, _⟩ => ⟨S_, .i32⟩
  | .hbm, ⟨21, _⟩ => ⟨S8000000, .i32⟩
  | .hbm, ⟨22, _⟩ => ⟨S8000000, .i32⟩
  | .hbm, ⟨23, _⟩ => ⟨S8000000, .i32⟩
  | .hbm, ⟨24, _⟩ => ⟨S8000000x1, .i32⟩
  | .hbm, ⟨25, _⟩ => ⟨S8000000, .f32⟩
  | .hbm, ⟨26, _⟩ => ⟨S_, .i32⟩
  | .hbm, ⟨27, _⟩ => ⟨S8000000, .i32⟩
  | .hbm, ⟨28, _⟩ => ⟨S8000000, .i1⟩
  | .hbm, ⟨29, _⟩ => ⟨S_, .i32⟩
  | .hbm, ⟨30, _⟩ => ⟨S8000000, .i32⟩
  | .hbm, ⟨31, _⟩ => ⟨S8000000, .i32⟩
  | .hbm, ⟨32, _⟩ => ⟨S8000000, .i32⟩
  | .hbm, ⟨33, _⟩ => ⟨S8000000x1, .i32⟩
  | .hbm, ⟨34, _⟩ => ⟨S8000000, .f32⟩
  | .hbm, ⟨35, _⟩ => ⟨S_, .i32⟩
  | .hbm, ⟨36, _⟩ => ⟨S8000000, .i32⟩
  | .hbm, ⟨37, _⟩ => ⟨S8000000, .i1⟩
  | .hbm, ⟨38, _⟩ => ⟨S_, .i32⟩
  | .hbm, ⟨39, _⟩ => ⟨S8000000, .i32⟩
  | .hbm, ⟨40, _⟩ => ⟨S8000000, .i32⟩
  | .hbm, ⟨41, _⟩ => ⟨S8000000, .i32⟩
  | .hbm, ⟨42, _⟩ => ⟨S8000000x1, .i32⟩
  | .hbm, ⟨43, _⟩ => ⟨S8000000, .f32⟩
  | .hbm, ⟨44, _⟩ => ⟨S_, .i32⟩
  | .hbm, ⟨45, _⟩ => ⟨S8000000, .i32⟩
  | .hbm, ⟨46, _⟩ => ⟨S8000000, .i1⟩
  | .hbm, ⟨47, _⟩ => ⟨S_, .i32⟩
  | .hbm, ⟨48, _⟩ => ⟨S8000000, .i32⟩
  | .hbm, ⟨49, _⟩ => ⟨S8000000, .i32⟩
  | .hbm, ⟨50, _⟩ => ⟨S8000000, .i32⟩
  | .hbm, ⟨51, _⟩ => ⟨S8000000x1, .i32⟩
  | .hbm, ⟨52, _⟩ => ⟨S8000000, .f32⟩
  | .hbm, ⟨53, _⟩ => ⟨S_, .i32⟩
  | .hbm, ⟨54, _⟩ => ⟨S_, .f32⟩
  | .hbm, ⟨55, _⟩ => ⟨S8192000, .f32⟩
  | .hbm, ⟨56, _⟩ => ⟨S64000x128, .f32⟩
  | .hbm, ⟨57, _⟩ => ⟨S_, .i32⟩
  | .hbm, ⟨58, _⟩ => ⟨S_, .f32⟩
  | .hbm, ⟨59, _⟩ => ⟨S8192000, .f32⟩
  | .hbm, ⟨60, _⟩ => ⟨S64000x128, .f32⟩
  | .hbm, ⟨61, _⟩ => ⟨S_, .i32⟩
  | .hbm, ⟨62, _⟩ => ⟨S_, .f32⟩
  | .hbm, ⟨63, _⟩ => ⟨S8192000, .f32⟩
  | .hbm, ⟨64, _⟩ => ⟨S64000x128, .f32⟩
  | .hbm, ⟨65, _⟩ => ⟨S_, .i32⟩
  | .hbm, ⟨66, _⟩ => ⟨S_, .f32⟩
  | .hbm, ⟨67, _⟩ => ⟨S8192000, .f32⟩
  | .hbm, ⟨68, _⟩ => ⟨S64000x128, .f32⟩
  | .hbm, ⟨69, _⟩ => ⟨S_, .i32⟩
  | .hbm, ⟨70, _⟩ => ⟨S_, .f32⟩
  | .hbm, ⟨71, _⟩ => ⟨S8192000, .f32⟩
  | .hbm, ⟨72, _⟩ => ⟨S64000x128, .f32⟩
  | .hbm, ⟨73, _⟩ => ⟨S_, .i32⟩
  | .hbm, ⟨74, _⟩ => ⟨S_, .f32⟩
  | .hbm, ⟨75, _⟩ => ⟨S8192000, .f32⟩
  | .hbm, ⟨76, _⟩ => ⟨S64000x128, .f32⟩
  | .hbm, ⟨77, _⟩ => ⟨S64000x128, .f32⟩
  | .hbm, ⟨78, _⟩ => ⟨S8192000, .f32⟩
  | .hbm, ⟨79, _⟩ => ⟨S8000000, .f32⟩
  | .hbm, ⟨80, _⟩ => ⟨S_, .f32⟩
  | .hbm, ⟨81, _⟩ => ⟨S1000000, .f32⟩
  | .hbm, ⟨82, _⟩ => ⟨S8000000x1, .i32⟩
  | .hbm, ⟨83, _⟩ => ⟨S1000000, .f32⟩
  | .hbm, ⟨84, _⟩ => ⟨S1000000, .f32⟩
  | .hbm, ⟨85, _⟩ => ⟨S1000000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_call0_v0 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_c_11 : Ref sig .tc := ⟨.hbm, 61, rfl⟩
abbrev main_call2_v0 : Ref sig .tc := ⟨.hbm, 62, rfl⟩
abbrev main_v39 : Ref sig .tc := ⟨.hbm, 63, rfl⟩
abbrev main_v40 : Ref sig .tc := ⟨.hbm, 64, rfl⟩
abbrev main_c_12 : Ref sig .tc := ⟨.hbm, 65, rfl⟩
abbrev main_call3_v0 : Ref sig .tc := ⟨.hbm, 66, rfl⟩
abbrev main_v41 : Ref sig .tc := ⟨.hbm, 67, rfl⟩
abbrev main_v42 : Ref sig .tc := ⟨.hbm, 68, rfl⟩
abbrev main_c_13 : Ref sig .tc := ⟨.hbm, 69, rfl⟩
abbrev main_call4_v0 : Ref sig .tc := ⟨.hbm, 70, rfl⟩
abbrev main_v43 : Ref sig .tc := ⟨.hbm, 71, rfl⟩
abbrev main_v44 : Ref sig .tc := ⟨.hbm, 72, rfl⟩
abbrev main_c_14 : Ref sig .tc := ⟨.hbm, 73, rfl⟩
abbrev main_call5_v0 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  pads_S8000000_S8192000_01920000 : S8000000.Pads (![0] : Fin 1 → Nat) ![192000] ![0] S8192000
  h_S_ : 0 < S_.numel
  shapeCasts_S8192000_S64000x128 : S8192000.ShapeCasts S64000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S64000x128_S8192000 : S64000x128.ShapeCasts S8192000
  slices_S8192000_S8000000_0 : S8192000.Slices ![0] S8000000
  bcast_S_S1000000 : S_.BroadcastsInDim S1000000 (![] : Fin 0 → Fin S1000000.rank)
  gather_S1000000_S8000000x1_S8000000_n_0_n_n_0_1_1_wf : GatherDims.WF S1000000 S8000000x1 S8000000 [] [0] [] [0] [] 1 ![1]
  scatter_S1000000_S8000000x1_S8000000_n_0_0_1_wf : ScatterDims.WF S1000000 S8000000x1 S8000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S64000x128.size a
  hwx0_0 : ∀ i : grid0.Coords, EltTy.bits .f32 = 32 ∨ (Rect.block (s := S64000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S64000x128.size a
  hwx0_1 : ∀ i : grid0.Coords, EltTy.bits .f32 = 32 ∨ (Rect.block (s := S64000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S64000x128.size a
  hwx0_2 : ∀ i : grid0.Coords, EltTy.bits .f32 = 32 ∨ (Rect.block (s := S64000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S64000x128.size a
  hwx0_3 : ∀ i : grid0.Coords, EltTy.bits .f32 = 32 ∨ (Rect.block (s := S64000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S64000x128.size a
  hwx0_4 : ∀ i : grid0.Coords, EltTy.bits .f32 = 32 ∨ (Rect.block (s := S64000x128) S4000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S64000x128.size a
  hwx0_5 : ∀ i : grid0.Coords, EltTy.bits .f32 = 32 ∨ (Rect.block (s := S64000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S64000x128.size a
  hwx0_6 : ∀ i : grid0.Coords, EltTy.bits .f32 = 32 ∨ (Rect.block (s := S64000x128) S4000x128.size (cc0_transform_6 i) (hinb0_6 i)).WholeWords (EltTy.packing .f32)

variable [Facts₀]

def gather_S1000000_S8000000x1_S8000000_n_0_n_n_0_1_1 : GatherDims S1000000 S8000000x1 S8000000 where
  offsetDims := []
  collapsedSliceDims := [0]
  operandBatchingDims := []
  startIndicesBatchingDims := []
  startIndexMap := [0]
  indexVectorDim := 1
  sliceSizes := ![1]
  wf := gather_S1000000_S8000000x1_S8000000_n_0_n_n_0_1_1_wf
def scatter_S1000000_S8000000x1_S8000000_n_0_0_1 : ScatterDims S1000000 S8000000x1 S8000000 where
  updateWindowDims := []
  insertedWindowDims := [0]
  scatterDimsToOperandDims := [0]
  indexVectorDim := 1
  wf := scatter_S1000000_S8000000x1_S8000000_n_0_0_1_wf

abbrev win0_0 : Pipeline.Window sig grid0 :=
  Pipeline.Window.ofSpec (Memref.whole main_v36) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v44) S4000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v46) S4000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v47) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000 : Shape := ⟨1, ![1000000]⟩
abbrev S8000000 : Shape := ⟨1, ![8000000]⟩
abbrev S_ : Shape := ⟨0, ![]⟩
abbrev S8000000x1 : Shape := ⟨2, ![8000000, 1]⟩

abbrev nBuf : Space → Nat
  | .hbm => 76
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000000, .f32⟩
  | .hbm, ⟨3, _⟩ => ⟨S1000000, .f32⟩
  | .hbm, ⟨4, _⟩ => ⟨S8000000, .f32⟩
  | .hbm, ⟨5, _⟩ => ⟨S8000000, .i32⟩
  | .hbm, ⟨6, _⟩ => ⟨S8000000, .i32⟩
  | .hbm, ⟨7, _⟩ => ⟨S_, .f32⟩
  | .hbm, ⟨8, _⟩ => ⟨S_, .i32⟩
  | .hbm, ⟨9, _⟩ => ⟨S8000000, .i32⟩
  | .hbm, ⟨10, _⟩ => ⟨S8000000, .i1⟩
  | .hbm, ⟨11, _⟩ => ⟨S_, .i32⟩
  | .hbm, ⟨12, _⟩ => ⟨S8000000, .i32⟩
  | .hbm, ⟨13, _⟩ => ⟨S8000000, .i32⟩
  | .hbm, ⟨14, _⟩ => ⟨S8000000, .i32⟩
  | .hbm, ⟨15, _⟩ => ⟨S8000000x1, .i32⟩
  | .hbm, ⟨16, _⟩ => ⟨S8000000, .f32⟩
  | .hbm, ⟨17, _⟩ => ⟨S_, .i32⟩
  | .hbm, ⟨18, _⟩ => ⟨S8000000, .i32⟩
  | .hbm, ⟨19, _⟩ => ⟨S8000000, .i1⟩
  | .hbm, ⟨20, _⟩ => ⟨S_, .i32⟩
  | .hbm, ⟨21, _⟩ => ⟨S8000000, .i32⟩
  | .hbm, ⟨22, _⟩ => ⟨S8000000, .i32⟩
  | .hbm, ⟨23, _⟩ => ⟨S8000000, .i32⟩
  | .hbm, ⟨24, _⟩ => ⟨S8000000x1, .i32⟩
  | .hbm, ⟨25, _⟩ => ⟨S8000000, .f32⟩
  | .hbm, ⟨26, _⟩ => ⟨S8000000, .f32⟩
  | .hbm, ⟨27, _⟩ => ⟨S_, .f32⟩
  | .hbm, ⟨28, _⟩ => ⟨S8000000, .f32⟩
  | .hbm, ⟨29, _⟩ => ⟨S8000000, .f32⟩
  | .hbm, ⟨30, _⟩ => ⟨S_, .i32⟩
  | .hbm, ⟨31, _⟩ => ⟨S8000000, .i32⟩
  | .hbm, ⟨32, _⟩ => ⟨S8000000, .i1⟩
  | .hbm, ⟨33, _⟩ => ⟨S_, .i32⟩
  | .hbm, ⟨34, _⟩ => ⟨S8000000, .i32⟩
  | .hbm, ⟨35, _⟩ => ⟨S8000000, .i32⟩
  | .hbm, ⟨36, _⟩ => ⟨S8000000, .i32⟩
  | .hbm, ⟨37, _⟩ => ⟨S8000000x1, .i32⟩
  | .hbm, ⟨38, _⟩ => ⟨S8000000, .f32⟩
  | .hbm, ⟨39, _⟩ => ⟨S_, .i32⟩
  | .hbm, ⟨40, _⟩ => ⟨S8000000, .i32⟩
  | .hbm, ⟨41, _⟩ => ⟨S8000000, .i1⟩
  | .hbm, ⟨42, _⟩ => ⟨S_, .i32⟩
  | .hbm, ⟨43, _⟩ => ⟨S8000000, .i32⟩
  | .hbm, ⟨44, _⟩ => ⟨S8000000, .i32⟩
  | .hbm, ⟨45, _⟩ => ⟨S8000000, .i32⟩
  | .hbm, ⟨46, _⟩ => ⟨S8000000x1, .i32⟩
  | .hbm, ⟨47, _⟩ => ⟨S8000000, .f32⟩
  | .hbm, ⟨48, _⟩ => ⟨S8000000, .f32⟩
  | .hbm, ⟨49, _⟩ => ⟨S_, .f32⟩
  | .hbm, ⟨50, _⟩ => ⟨S8000000, .f32⟩
  | .hbm, ⟨51, _⟩ => ⟨S8000000, .f32⟩
  | .hbm, ⟨52, _⟩ => ⟨S_, .i32⟩
  | .hbm, ⟨53, _⟩ => ⟨S8000000, .i32⟩
  | .hbm, ⟨54, _⟩ => ⟨S8000000, .i1⟩
  | .hbm, ⟨55, _⟩ => ⟨S_, .i32⟩
  | .hbm, ⟨56, _⟩ => ⟨S8000000, .i32⟩
  | .hbm, ⟨57, _⟩ => ⟨S8000000, .i32⟩
  | .hbm, ⟨58, _⟩ => ⟨S8000000, .i32⟩
  | .hbm, ⟨59, _⟩ => ⟨S8000000x1, .i32⟩
  | .hbm, ⟨60, _⟩ => ⟨S8000000, .f32⟩
  | .hbm, ⟨61, _⟩ => ⟨S8000000, .f32⟩
  | .hbm, ⟨62, _⟩ => ⟨S8000000, .f32⟩
  | .hbm, ⟨63, _⟩ => ⟨S_, .f32⟩
  | .hbm, ⟨64, _⟩ => ⟨S8000000, .f32⟩
  | .hbm, ⟨65, _⟩ => ⟨S8000000, .f32⟩
  | .hbm, ⟨66, _⟩ => ⟨S8000000, .f32⟩
  | .hbm, ⟨67, _⟩ => ⟨S8000000, .f32⟩
  | .hbm, ⟨68, _⟩ => ⟨S8000000, .f32⟩
  | .hbm, ⟨69, _⟩ => ⟨S8000000, .f32⟩
  | .hbm, ⟨70, _⟩ => ⟨S8000000, .f32⟩
  | .hbm, ⟨71, _⟩ => ⟨S8000000, .f32⟩
  | .hbm, ⟨72, _⟩ => ⟨S_, .f32⟩
  | .hbm, ⟨73, _⟩ => ⟨S1000000, .f32⟩
  | .hbm, ⟨74, _⟩ => ⟨S8000000x1, .i32⟩
  | .hbm, ⟨75, _⟩ => ⟨S1000000, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S1000000 : S_.BroadcastsInDim S1000000 (![] : Fin 0 → Fin S1000000.rank)
  gather_S1000000_S8000000x1_S8000000_n_0_n_n_0_1_1_wf : GatherDims.WF S1000000 S8000000x1 S8000000 [] [0] [] [0] [] 1 ![1]
  scatter_S1000000_S8000000x1_S8000000_n_0_0_1_wf : ScatterDims.WF S1000000 S8000000x1 S8000000 [] [0] [0] 1

variable [Facts₀]

def gather_S1000000_S8000000x1_S8000000_n_0_n_n_0_1_1 : GatherDims S1000000 S8000000x1 S8000000 where
  offsetDims := []
  collapsedSliceDims := [0]
  operandBatchingDims := []
  startIndicesBatchingDims := []
  startIndexMap := [0]
  indexVectorDim := 1
  sliceSizes := ![1]
  wf := gather_S1000000_S8000000x1_S8000000_n_0_n_n_0_1_1_wf
def scatter_S1000000_S8000000x1_S8000000_n_0_0_1 : ScatterDims S1000000 S8000000x1 S8000000 where
  updateWindowDims := []
  insertedWindowDims := [0]
  scatterDimsToOperandDims := [0]
  indexVectorDim := 1
  wf := scatter_S1000000_S8000000x1_S8000000_n_0_0_1_wf

class Facts : Prop extends Facts₀ where

variable [Facts]
-- ==== Proof.EdgeLaw.lean ====
/-
  The algebra of the pooled edge power, over the extended reals and with no program in sight.

  Each edge e carries  p(e) = max(Tₛ − Tₜ, 0) · k · ½ · (L · D · π̃ · f) · Tₜ³  (π̃ the binary32 value nearest π), and node n
  receives the sum of p(e) over the edges whose target is n. One side scales that sum by the time step τ, the other scales each
  summand first. On the extended reals a product does not distribute over a sum in general (∞ and −∞ among the summands), so
  the two agree only because every summand and τ are real numbers: then both sides are the real number (Σ p(e)) · τ.
-/
import Idealize.ShloMosaic.PureOps.Ideal
import Idealize.ShloMosaic.PureOps.Ideal.Laws

noncomputable section

namespace Cert.Pool

open Idealize.ShloMosaic

/-- An extended real that is a real number (neither infinity). -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem isReal_max {x y : EReal} (hx : IsReal x) (hy : IsReal y) : IsReal (max x y) := by
  obtain ⟨a, rfl⟩ := hx; obtain ⟨b, rfl⟩ := hy
  exact ⟨max a b, (EReal.coe_strictMono.monotone.map_max (a := a) (b := b)).symm⟩

/-- A word of a binary float format whose exponent field is not all ones denotes a real number. -/
theorem isReal_ieee (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The three binary32 constants of the formula — 0, ½ and π̃ — are real numbers. -/
theorem isReal_zero : IsReal (Ideal.ofBits .f32 0x00000000#32) := by
  show IsReal (Ideal.ieee 8 23 (0x00000000#32 : BitVec 32)); exact isReal_ieee 8 23 _ (by decide)
theorem isReal_half : IsReal (Ideal.ofBits .f32 0x3F000000#32) := by
  show IsReal (Ideal.ieee 8 23 (0x3F000000#32 : BitVec 32)); exact isReal_ieee 8 23 _ (by decide)
theorem isReal_pi : IsReal (Ideal.ofBits .f32 0x40490FDB#32) := by
  show IsReal (Ideal.ieee 8 23 (0x40490FDB#32 : BitVec 32)); exact isReal_ieee 8 23 _ (by decide)

/-- The power one edge carries, from the source and target temperatures, the source's length, diameter and wetted
    fraction, and the edge's conductance: max(Tₛ − Tₜ, 0) · k · ½ · (L · D · π̃ · f) · (Tₜ · Tₜ · Tₜ), grouped to the left. -/
def edgePower (ts tt l d f k : EReal) : EReal :=
  max (ts - tt) (Ideal.ofBits .f32 0x00000000#32) * k * Ideal.ofBits .f32 0x3F000000#32
    * (l * d * Ideal.ofBits .f32 0x40490FDB#32 * f) * (tt * tt * tt)

/-- Of real data the edge power is a real number: differences, maxima and products of reals are reals. -/
theorem edgePower_isReal {ts tt l d f k : EReal} (hts : IsReal ts) (htt : IsReal tt) (hl : IsReal l) (hd : IsReal d)
    (hf : IsReal f) (hk : IsReal k) : IsReal (edgePower ts tt l d f k) :=
  ((((isReal_max (hts.sub htt) isReal_zero).mul hk).mul isReal_half).mul (((hl.mul hd).mul isReal_pi).mul hf)).mul
    ((htt.mul htt).mul htt)

/-- The inclusion of the reals commutes with finite sums. -/
theorem coe_finset_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of real numbers, started from 0 and scaled by a real τ, is the sum of the scaled summands started from 0:
    (0 + Σ uⱼ) · τ = 0 + Σ (uⱼ · τ). This is distributivity in ℝ, carried to the extended reals. -/
theorem sum_mul_of_isReal {ι : Type} (s : Finset ι) (u : ι → EReal) (t : EReal) (hu : ∀ j, IsReal (u j)) (ht : IsReal t) :
    (0 + ∑ j ∈ s, u j) * t = 0 + ∑ j ∈ s, u j * t := by
  choose r hr using hu
  obtain ⟨τ, rfl⟩ := ht
  simp only [hr, zero_add]
  rw [← coe_finset_sum, ← EReal.coe_mul, Finset.sum_mul, coe_finset_sum]
  exact Finset.sum_congr rfl fun j _ => EReal.coe_mul _ _

/-- The accumulating scatter into an all-zero operand is linear in real updates: entry i of the result is 0 plus the sum of
    the updates landing on i, so scaling the result by a real τ is scattering the updates scaled by τ. The set of updates
    that land on i is the same on both sides and is never opened. -/
theorem scatterAdd_scale {s si su : Shape} (d : ScatterDims s si su) {w : Nat} (z : s.Idx → EReal) (idx : IVec si w)
    (u : su.Idx → EReal) (t : EReal) (hz : ∀ i, z i = 0) (hu : ∀ j, IsReal (u j)) (ht : IsReal t) (i : s.Idx) :
    Ideal.hostScatterAdd d z idx u i * t = Ideal.hostScatterAdd d z idx (fun j => u j * t) i := by
  show (z i + ∑ j ∈ Finset.univ.filter (fun j => d.resultIdx? j idx = some i), u j) * t
    = z i + ∑ j ∈ Finset.univ.filter (fun j => d.resultIdx? j idx = some i), u j * t
  rw [hz i]
  exact sum_mul_of_isReal _ u t hu ht

/-- The same law in the host operation's own spelling, entry i of the scaled result on the left. -/
theorem host_scatterAdd_scale {s si su : Shape} (d : ScatterDims s si su) {w : Nat} (z : FVec Ideal s .f32) (idx : IVec si w)
    (u : FVec Ideal su .f32) (t : EReal) (hz : ∀ i, z i = 0) (hu : ∀ j, IsReal (u j)) (ht : IsReal t) (i : s.Idx) :
    Host.scatterAdd d z idx u i * t = Host.scatterAdd d z idx (fun j => u j * t) i :=
  scatterAdd_scale d z idx u t hz hu ht i

end Cert.Pool

end
-- ==== Proof.Layout.lean ====
/-
  The layout the kernel's program puts around its region, as named functions with their entries.

  An edge list of 8 000 000 entries is laid out for the region as a 64000 × 128 table: padded at the end to 8 192 000 entries
  and cut into rows of 128, so that entry e sits at row e / 128, column e % 128. After the region the table is flattened again and
  its first 8 000 000 entries kept. Both are pure re-indexings: the padding never reaches an entry below 8 000 000. A node table
  is read at an edge's index by a gather whose start indices are the edge's node number, a number below zero counted from the end.
-/
import proofs.«109432_j1228360646896_1_alg».proof.Proof.Gen.KernelIdeal
import proofs.«109432_j1228360646896_1_alg».proof.Proof.EdgeLaw
import Idealize.ShloMosaic.Lib.ValueIdx
import Idealize.ShloMosaic.Lib.Pipeline.Value
import Idealize.ShloMosaic.Lib.KernelVsHost

noncomputable section

namespace Cert.KernelIdeal.Pool

open Idealize.ShloMosaic Idealize.ShloMosaic.ValueIdx
open Cert.KernelIdeal Cert.KernelIdeal.Facts₀ Cert.KernelIdeal.Facts Cert.Pool

/-- A list of node numbers as the column of start indices a gather reads: a number below zero has 1 000 000 added. -/
def wrapped (i : IVec S8000000 32) : IVec S8000000x1 32 :=
  broadcastInDim S8000000x1 ![0] bcast_S8000000_S8000000x1_0
    (select (cmpi .slt i (broadcastInDim S8000000 ![] bcast_S_S8000000 (constantI S_ 32 0#32)))
      (addi i (broadcastInDim S8000000 ![] bcast_S_S8000000 (constantI S_ 32 1000000#32))) i)

/-- A node table read at each edge's node number. -/
def taken (x : FVec Ideal S1000000 .f32) (i : IVec S8000000 32) : FVec Ideal S8000000 .f32 :=
  Host.gather gather_S1000000_S8000000x1_S8000000_n_0_n_n_0_1_1 x (wrapped i)

/-- Every entry of a table read at node numbers is an entry of the table. -/
theorem taken_entry (x : FVec Ideal S1000000 .f32) (i : IVec S8000000 32) (j : S8000000.Idx) :
    ∃ k : S1000000.Idx, taken x i j = x k := ⟨_, rfl⟩

/-- An edge list as the region's 64000 × 128 table: padded at the end to 8 192 000 entries, then cut into rows of 128. -/
def laidOut (x : FVec Ideal S8000000 .f32) : FVec Ideal S64000x128 .f32 :=
  shapeCast S64000x128
    (pad S8192000 ![0] ![192000] ![0] x (sitofp (F := Ideal) .f32 (constantI S_ 32 0#32)) pads_S8000000_S8192000_01920000 h_S_)
    shapeCasts_S8192000_S64000x128

/-- The table's entry (p, q) is the list's entry 128 p + q, wherever that is below 8 000 000. -/
theorem laidOut_apply (x : FVec Ideal S8000000 .f32) (p : Fin 64000) (q : Fin 128) (e : Fin 8000000)
    (he : e.val = p.val * 128 + q.val) : laidOut x (ix2 p q) = x (ix1 e) := by
  unfold laidOut
  have hlt : p.val * 128 + q.val < 8192000 := by omega
  refine (shapeCast_apply _ shapeCasts_S8192000_S64000x128 (ix2 p q) (ix1 (⟨p.val * 128 + q.val, hlt⟩ : Fin 8192000)) ?_).trans ?_
  · rw [Shape.rowMajor_val_one, Shape.rowMajor_val_two]; rfl
  · refine pad_apply_of_inside _ _ _ x _ pads_S8000000_S8192000_01920000 h_S_ _ (ix1 e) ?_
    intro a
    have ha : a = 0 := Subsingleton.elim _ _
    subst ha
    show p.val * 128 + q.val = 0 + e.val * (0 + 1)
    omega

/-- The region's 64000 × 128 table as an edge list again: flattened, its first 8 000 000 entries kept. -/
def unlaid (y : FVec Ideal S64000x128 .f32) : FVec Ideal S8000000 .f32 :=
  extractStridedSlice S8000000 ![0] (shapeCast S8192000 y shapeCasts_S64000x128_S8192000) slices_S8192000_S8000000_0

/-- The list's entry 128 p + q is the table's entry (p, q). -/
theorem unlaid_apply (y : FVec Ideal S64000x128 .f32) (p : Fin 64000) (q : Fin 128) (e : Fin 8000000)
    (he : e.val = p.val * 128 + q.val) : unlaid y (ix1 e) = y (ix2 p q) := by
  unfold unlaid
  have hlt : e.val < 8192000 := by omega
  refine (extractStridedSlice_apply _ _ slices_S8192000_S8000000_0 (ix1 e) (ix1 (⟨e.val, hlt⟩ : Fin 8192000)) ?_).trans ?_
  · intro a
    have ha : a = 0 := Subsingleton.elim _ _
    subst ha
    show e.val = 0 + e.val
    omega
  · refine shapeCast_apply _ shapeCasts_S64000x128_S8192000 (ix1 (⟨e.val, hlt⟩ : Fin 8192000)) (ix2 p q) ?_
    rw [Shape.rowMajor_val_one, Shape.rowMajor_val_two]
    show p.val * 128 + q.val = e.val
    omega

/-- Laying six edge lists out, taking the edge power entry by entry and reading the table back as a list gives, at edge e,
    the edge power of the six lists' entries at e: the layout is undone exactly. -/
theorem unlaid_power (g0 g1 g2 g3 g4 g5 : FVec Ideal S8000000 .f32) (e : Fin 8000000) :
    unlaid (fun i => edgePower (laidOut g0 i) (laidOut g1 i) (laidOut g2 i) (laidOut g3 i) (laidOut g4 i) (laidOut g5 i)) (ix1 e)
      = edgePower (g0 (ix1 e)) (g1 (ix1 e)) (g2 (ix1 e)) (g3 (ix1 e)) (g4 (ix1 e)) (g5 (ix1 e)) := by
  have he : e.val < 8000000 := e.isLt
  have hp : e.val / 128 < 64000 := by omega
  have hq : e.val % 128 < 128 := Nat.mod_lt _ (by decide)
  have hpq : e.val = (⟨e.val / 128, hp⟩ : Fin 64000).val * 128 + (⟨e.val % 128, hq⟩ : Fin 128).val := by
    show e.val = e.val / 128 * 128 + e.val % 128
    omega
  rw [unlaid_apply _ ⟨e.val / 128, hp⟩ ⟨e.val % 128, hq⟩ e hpq]
  show edgePower (laidOut g0 (ix2 _ _)) (laidOut g1 (ix2 _ _)) (laidOut g2 (ix2 _ _)) (laidOut g3 (ix2 _ _))
    (laidOut g4 (ix2 _ _)) (laidOut g5 (ix2 _ _)) = _
  rw [laidOut_apply g0 _ _ e hpq, laidOut_apply g1 _ _ e hpq, laidOut_apply g2 _ _ e hpq, laidOut_apply g3 _ _ e hpq,
    laidOut_apply g4 _ _ e hpq, laidOut_apply g5 _ _ e hpq]

/-- What the kernel's program computes, as one function of its eight inputs: the five node tables read at the edges' source or
    target numbers and the conductances are laid out as tables, the region takes the edge power entry by entry, the table is
    read back as a list, scattered onto the edges' target nodes with accumulation into zeros, and the node sums are scaled by
    the time step. -/
def pooled (T L D f : FVec Ideal S1000000 .f32) (k : FVec Ideal S8000000 .f32) (src tgt : IVec S8000000 32)
    (ts : FVec Ideal S_ .f32) : FVec Ideal S1000000 .f32 :=
  mulf
    (Host.scatterAdd scatter_S1000000_S8000000x1_S8000000_n_0_0_1
      (broadcastInDim S1000000 ![] bcast_S_S1000000 (constant (F := Ideal) S_ .f32 0x00000000#32))
      (broadcastInDim S8000000x1 ![0] bcast_S8000000_S8000000x1_0 tgt)
      (unlaid (fun i => edgePower (laidOut (taken T src) i) (laidOut (taken T tgt) i) (laidOut (taken L src) i)
        (laidOut (taken D src) i) (laidOut (taken f src) i) (laidOut k i))))
    (broadcastInDim S1000000 ![] bcast_S_S1000000 ts)

end Cert.KernelIdeal.Pool

end
-- ==== Proof.RegionArray.lean ====
/-
  What the one kernel region leaves in its result array, as ONE function of the six arrays it reads.

  The region walks 16 grid points; point t reads rows [4000·t, 4000·t + 4000) of each of six 64000 × 128 arrays and writes the
  same rows of the result. Its body is entrywise: at entry (r, q) of the block it stores the edge power of the six inputs' entries
  (r, q). All seven windows move together (the same block index at every point), so block t of the result is block t of the
  entrywise edge power of the whole arrays; the 16 row blocks tile the 64000 rows, so the result array ends as that function.
-/
import proofs.«109432_j1228360646896_1_alg».proof.Proof.Gen.KernelIdeal.Frame
import proofs.«109432_j1228360646896_1_alg».proof.Proof.EdgeLaw
import Idealize.ShloMosaic.Lib.ValueIdx
import Idealize.ShloMosaic.Lib.Pipeline.Value

set_option maxRecDepth 16384

noncomputable section

namespace Cert.KernelIdeal.Pool

open Idealize.ShloMosaic Idealize.ShloMosaic.TcCoe Idealize.SL.Sem Idealize.ShloMosaic.ValueIdx
open Cert.KernelIdeal Cert.KernelIdeal.Gen Cert.Pool
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- The edge power, entry by entry, of six arrays of one shape. -/
abbrev powerOf (a0 a1 a2 a3 a4 a5 : S64000x128.Idx → Elt Ideal .f32) : S64000x128.Idx → Elt Ideal .f32 :=
  fun i => edgePower (a0 i) (a1 i) (a2 i) (a3 i) (a4 i) (a5 i)

/-- The body's one stored value, read at an entry of the block, is the edge power of the six loaded blocks' entries there:
    every operation of the body is entrywise (the shape casts are between equal shapes). -/
theorem pay_apply (x0 x1 x2 x3 x4 x5 : Vec Ideal S4000x128 .f32) (j : S4000x128.Idx) :
    k0_pay1 (F := Ideal) x0 x1 x2 x3 x4 x5 j = edgePower (x0 j) (x1 j) (x2 j) (x3 j) (x4 j) (x5 j) := by
  unfold k0_pay1 edgePower
  simp only [shapeCast_self]
  rfl

/-- Every one of the 16 row blocks is some point's. -/
theorem idx_onto : ∀ q0 : Fin 16, ∃ t : Fin cfg0.N, win0_6.index t = ![q0.val, 0] :=
  (by decide +kernel : ∀ q0 : Fin 16, ∃ t : Fin grid0.N, win0_6.index t = ![q0.val, 0])

/-- Window 0's block at point t, read at an entry, is the source temperatures' array at the entry the
    result window's block puts there: the two windows have the same index map, point t ↦ block (t, 0). -/
theorem blk_read0 (c : Dev nD) (t : Fin cfg0.N) (j : S4000x128.Idx) :
    (iblk m c 0 t : Vec Ideal S4000x128 .f32) j
      = (V m c main_v36 : S64000x128.Idx → Elt Ideal .f32) (((cfg0.win 6).blk t).view.emb j) := by
  unfold iblk
  rw [View.read_apply]
  show V m c main_v36 _ = V m c main_v36 _
  congr 1

/-- Window 1's block at point t, read at an entry, is the target temperatures' array at the entry the
    result window's block puts there: the two windows have the same index map, point t ↦ block (t, 0). -/
theorem blk_read1 (c : Dev nD) (t : Fin cfg0.N) (j : S4000x128.Idx) :
    (iblk m c 1 t : Vec Ideal S4000x128 .f32) j
      = (V m c main_v38 : S64000x128.Idx → Elt Ideal .f32) (((cfg0.win 6).blk t).view.emb j) := by
  unfold iblk
  rw [View.read_apply]
  show V m c main_v38 _ = V m c main_v38 _
  congr 1

/-- Window 2's block at point t, read at an entry, is the lengths' array at the entry the
    result window's block puts there: the two windows have the same index map, point t ↦ block (t, 0). -/
theorem blk_read2 (c : Dev nD) (t : Fin cfg0.N) (j : S4000x128.Idx) :
    (iblk m c 2 t : Vec Ideal S4000x128 .f32) j
      = (V m c main_v40 : S64000x128.Idx → Elt Ideal .f32) (((cfg0.win 6).blk t).view.emb j) := by
  unfold iblk
  rw [View.read_apply]
  show V m c main_v40 _ = V m c main_v40 _
  congr 1

/-- Window 3's block at point t, read at an entry, is the diameters' array at the entry the
    result window's block puts there: the two windows have the same index map, point t ↦ block (t, 0). -/
theorem blk_read3 (c : Dev nD) (t : Fin cfg0.N) (j : S4000x128.Idx) :
    (iblk m c 3 t : Vec Ideal S4000x128 .f32) j
      = (V m c main_v42 : S64000x128.Idx → Elt Ideal .f32) (((cfg0.win 6).blk t).view.emb j) := by
  unfold iblk
  rw [View.read_apply]
  show V m c main_v42 _ = V m c main_v42 _
  congr 1

/-- Window 4's block at point t, read at an entry, is the wetted fractions' array at the entry the
    result window's block puts there: the two windows have the same index map, point t ↦ block (t, 0). -/
theorem blk_read4 (c : Dev nD) (t : Fin cfg0.N) (j : S4000x128.Idx) :
    (iblk m c 4 t : Vec Ideal S4000x128 .f32) j
      = (V m c main_v44 : S64000x128.Idx → Elt Ideal .f32) (((cfg0.win 6).blk t).view.emb j) := by
  unfold iblk
  rw [View.read_apply]
  show V m c main_v44 _ = V m c main_v44 _
  congr 1

/-- Window 5's block at point t, read at an entry, is the conductances' array at the entry the
    result window's block puts there: the two windows have the same index map, point t ↦ block (t, 0). -/
theorem blk_read5 (c : Dev nD) (t : Fin cfg0.N) (j : S4000x128.Idx) :
    (iblk m c 5 t : Vec Ideal S4000x128 .f32) j
      = (V m c main_v46 : S64000x128.Idx → Elt Ideal .f32) (((cfg0.win 6).blk t).view.emb j) := by
  unfold iblk
  rw [View.read_apply]
  show V m c main_v46 _ = V m c main_v46 _
  congr 1

/-- What point t writes back is block t of the entrywise edge power of the six arrays as the region finds them. -/
theorem flushed_eq (c : Dev nD) (t : Fin cfg0.N) :
    (dats m 0 c).flushed 6 t = ((cfg0.win 6).blk t).view.read (Elt Ideal)
      (powerOf (V m c main_v36) (V m c main_v38) (V m c main_v40) (V m c main_v42) (V m c main_v44) (V m c main_v46)) := by
  show (cfg0.win 6).cut (grid0.coords t) ((dats m 0 c).after 6 t) = _
  rw [after0_6]
  unfold out0_6
  rw [View.canon_unit_zero origin]
  simp only [View.ld_unit_zero (S := S4000x128) origin]
  funext j
  refine (pay_apply (iblk m c 0 t) (iblk m c 1 t) (iblk m c 2 t) (iblk m c 3 t) (iblk m c 4 t) (iblk m c 5 t) j).trans ?_
  rw [blk_read0 m c t j, blk_read1 m c t j, blk_read2 m c t j, blk_read3 m c t j, blk_read4 m c t j, blk_read5 m c t j]
  rfl

/-- An entry of the result array lies in point t's block iff each coordinate lies in the block's range on its axis. -/
theorem mem_blk (t : Fin cfg0.N) (i : S64000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v47).slice (win0_6.rect t)).set ↔ _
  rw [View.set_slice_whole, Rect.mem_set_unit]
  exact Iff.rfl

/-- Every entry (r, q) is written back by the point whose block holds row r, the point r / 4000. -/
theorem covered (i : S64000x128.Idx) :
    ∃ t : Fin cfg0.N, (cfg0.win 6).flush t = true ∧ i ∈ ((cfg0.win 6).blk t).view.set := by
  have hi0 : (i 0).val < 64000 := (i 0).isLt
  have hi1 : (i 1).val < 128 := (i 1).isLt
  obtain ⟨t, ht⟩ := idx_onto ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- The result array after the region: the entrywise edge power of the six arrays the region read. -/
theorem region_result (c : Dev nD) : (dats m 0 c).arrAt 6 cfg0.N
    = powerOf (V m c main_v36) (V m c main_v38) (V m c main_v40) (V m c main_v42) (V m c main_v44) (V m c main_v46) :=
  (dats m 0 c).arrAt_eq_of_cover 6 _ (fun t _ => flushed_eq m c t) covered

end Cert.KernelIdeal.Pool

end
-- ==== Proof.RegionEntry.lean ====
/-
  The six arrays the region reads, as the host operations before it leave them: each is a node table read at the edges' source
  or target numbers (or the conductance list itself), laid out as a 64000 × 128 table.
-/
import proofs.«109432_j1228360646896_1_alg».proof.Proof.Gen.KernelIdeal.Frame
import proofs.«109432_j1228360646896_1_alg».proof.Proof.Layout
import Idealize.ShloMosaic.Lib.StableHlo.Run

set_option maxRecDepth 16384

noncomputable section

namespace Cert.KernelIdeal.Pool

open Idealize.ShloMosaic Idealize.ShloMosaic.TcCoe Idealize.SL.Sem Idealize.ShloMosaic.StableHlo
open Cert.KernelIdeal Cert.KernelIdeal.Gen Cert.Pool

variable (m : (ℓ : Loc nD τ sig) → Buf (Elt Ideal) ℓ)

set_option maxHeartbeats 8000000 in
/-- The array window 0 reads, as the host operations before the region leave it: the temperatures at the edges' sources, laid out as a table. -/
theorem entry0 (c : Dev nD) : (V m c main_v36 : S64000x128.Idx → Elt Ideal .f32) = laidOut (taken (m ((c.tc : Thread nD τ).loc main_arg0)) (m ((c.tc : Thread nD τ).loc main_arg5))) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v36) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

set_option maxHeartbeats 8000000 in
/-- The array window 1 reads, as the host operations before the region leave it: the temperatures at the edges' targets, laid out as a table. -/
theorem entry1 (c : Dev nD) : (V m c main_v38 : S64000x128.Idx → Elt Ideal .f32) = laidOut (taken (m ((c.tc : Thread nD τ).loc main_arg0)) (m ((c.tc : Thread nD τ).loc main_arg6))) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v38) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

set_option maxHeartbeats 8000000 in
/-- The array window 2 reads, as the host operations before the region leave it: the lengths at the edges' sources, laid out as a table. -/
theorem entry2 (c : Dev nD) : (V m c main_v40 : S64000x128.Idx → Elt Ideal .f32) = laidOut (taken (m ((c.tc : Thread nD τ).loc main_arg1)) (m ((c.tc : Thread nD τ).loc main_arg5))) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v40) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

set_option maxHeartbeats 8000000 in
/-- The array window 3 reads, as the host operations before the region leave it: the diameters at the edges' sources, laid out as a table. -/
theorem entry3 (c : Dev nD) : (V m c main_v42 : S64000x128.Idx → Elt Ideal .f32) = laidOut (taken (m ((c.tc : Thread nD τ).loc main_arg2)) (m ((c.tc : Thread nD τ).loc main_arg5))) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v42) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

set_option maxHeartbeats 8000000 in
/-- The array window 4 reads, as the host operations before the region leave it: the wetted fractions at the edges' sources, laid out as a table. -/
theorem entry4 (c : Dev nD) : (V m c main_v44 : S64000x128.Idx → Elt Ideal .f32) = laidOut (taken (m ((c.tc : Thread nD τ).loc main_arg3)) (m ((c.tc : Thread nD τ).loc main_arg5))) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v44) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

set_option maxHeartbeats 8000000 in
/-- The array window 5 reads, as the host operations before the region leave it: the edges' conductances, laid out as a table. -/
theorem entry5 (c : Dev nD) : (V m c main_v46 : S64000x128.Idx → Elt Ideal .f32) = laidOut (m ((c.tc : Thread nD τ).loc main_arg4)) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v46) = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

end Cert.KernelIdeal.Pool

end
-- ==== Proof.KernelRun.lean ====
/-
  The kernel's program, run: its result buffer ends holding `pooled` of the eight inputs.

  The region's result array is the entrywise edge power of the six tables it read (RegionArray), those tables are the laid-out
  edge lists (RegionEntry), and the host operations after the region flatten the result, keep its first 8 000 000 entries,
  scatter them onto the target nodes with accumulation into zeros and scale by the time step: that composition is `pooled`.
-/
import proofs.«109432_j1228360646896_1_alg».proof.Proof.Gen.KernelIdeal.Frame
import proofs.«109432_j1228360646896_1_alg».proof.Proof.Layout
import proofs.«109432_j1228360646896_1_alg».proof.Proof.RegionArray
import proofs.«109432_j1228360646896_1_alg».proof.Proof.RegionEntry
import Idealize.ShloMosaic.Lib.StableHlo.Run

set_option maxRecDepth 16384

noncomputable section

namespace Cert.KernelIdeal.Pool

open Idealize.ShloMosaic Idealize.ShloMosaic.TcCoe Idealize.SL.Sem Idealize.ShloMosaic.StableHlo
open Cert.KernelIdeal Cert.KernelIdeal.Gen Cert.Pool

variable (m : (ℓ : Loc nD τ sig) → Buf (Elt Ideal) ℓ) (ρ : Dev nD → PrngReg)

/-- After the region the target numbers are still the input's: no window stages them and no host operation writes them. -/
theorem tail_tgt (c : Dev nD) : Pipeline.withArrays (cfgs 0).spec c (V0 m c) (fun w => (dats m 0 c).arrAt w (cfgs 0).N) (Proc.devRef .tc main_arg6) = m ((c.tc : Thread nD τ).loc main_arg6) :=
  (Pipeline.withArrays_of_ne _ c (V0 m c) _ main_arg6 (by exact (by decide : ∀ w, Pipeline.arrRef spec0 w ≠ main_arg6))).trans
    (V_main_arg6 m c)

/-- Likewise the time step. -/
theorem tail_step (c : Dev nD) : Pipeline.withArrays (cfgs 0).spec c (V0 m c) (fun w => (dats m 0 c).arrAt w (cfgs 0).N) (Proc.devRef .tc main_arg7) = m ((c.tc : Thread nD τ).loc main_arg7) :=
  (Pipeline.withArrays_of_ne _ c (V0 m c) _ main_arg7 (by exact (by decide : ∀ w, Pipeline.arrRef spec0 w ≠ main_arg7))).trans
    (V_main_arg7 m c)

/-- The region's result array, as the host tail finds it: the entrywise edge power of the six laid-out edge lists. -/
theorem tail_table (c : Dev nD) : (Pipeline.withArrays (cfgs 0).spec c (V0 m c) (fun w => (dats m 0 c).arrAt w (cfgs 0).N) (Proc.devRef .tc main_v47) : S64000x128.Idx → Elt Ideal .f32)
    = fun i => edgePower (laidOut (taken (m ((c.tc : Thread nD τ).loc main_arg0)) (m ((c.tc : Thread nD τ).loc main_arg5))) i) (laidOut (taken (m ((c.tc : Thread nD τ).loc main_arg0)) (m ((c.tc : Thread nD τ).loc main_arg6))) i)
        (laidOut (taken (m ((c.tc : Thread nD τ).loc main_arg1)) (m ((c.tc : Thread nD τ).loc main_arg5))) i) (laidOut (taken (m ((c.tc : Thread nD τ).loc main_arg2)) (m ((c.tc : Thread nD τ).loc main_arg5))) i)
        (laidOut (taken (m ((c.tc : Thread nD τ).loc main_arg3)) (m ((c.tc : Thread nD τ).loc main_arg5))) i) (laidOut (m ((c.tc : Thread nD τ).loc main_arg4)) i) := by
  refine (Pipeline.withArrays_arr spec0 launch0.win.arr_inj c _ _ 6).trans ?_
  refine (region_result m c).trans ?_
  rw [entry0 m c, entry1 m c, entry2 m c, entry3 m c, entry4 m c, entry5 m c]

set_option maxHeartbeats 8000000 in
/-- The result buffer after the host tail is `pooled` of the inputs. -/
theorem tail_result (c : Dev nD) :
    (Pipeline.afterTail₀ cfgs (dats m) 0 (V0 m) [hostOps1] c main_v54 : S1000000.Idx → Elt Ideal .f32)
      = pooled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  show StableHlo.after hostOps1 _ (Proc.devRef .tc main_v54) = _
  after_results
  rw [tail_tgt m c, tail_step m c, tail_table m c]
  rfl

/-- Every weakly fair execution of the kernel's program terminates with its result at `pooled` of the inputs and the inputs
    unchanged. -/
theorem run : θ_run defs (onTc (τ := τ) (main (F := Ideal))) ⟨m, fun _ => 0, ρ⟩ fun r => ∀ c : Dev nD,
      r.2.mem ((c.tc : Thread nD τ).loc main_v54) = pooled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v54 (Pipeline.mem_restRefs_of main_v54 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Pool

end
-- ==== Proof.RefTerm.lean ====
/-
  The reference's program as one function of its eight inputs.

  The reference reads the node tables at the edges' source and target numbers, takes the edge power of each edge, scales it by
  the time step, and scatters the scaled powers onto the target nodes with accumulation into zeros. Its run's result term is that
  function of the inputs, operation for operation.
-/
import proofs.«109432_j1228360646896_1_alg».proof.Proof.Gen.ReferenceIdeal.Run
import proofs.«109432_j1228360646896_1_alg».proof.Proof.Gen.ReferenceIdeal.Read
import proofs.«109432_j1228360646896_1_alg».proof.Proof.EdgeLaw
import Idealize.ShloMosaic.Lib.ValueIdx

noncomputable section

namespace Cert.ReferenceIdeal.Pool

open Idealize.ShloMosaic Idealize.ShloMosaic.TcCoe Idealize.SL.Sem Idealize.ShloMosaic.ValueIdx
open Cert.ReferenceIdeal Cert.ReferenceIdeal.Facts₀ Cert.ReferenceIdeal.Facts Cert.Pool

/-- A list of node numbers as the column of start indices a gather reads: a number below zero has 1 000 000 added. -/
def wrapped (i : IVec S8000000 32) : IVec S8000000x1 32 :=
  broadcastInDim S8000000x1 ![0] bcast_S8000000_S8000000x1_0
    (select (cmpi .slt i (broadcastInDim S8000000 ![] bcast_S_S8000000 (constantI S_ 32 0#32)))
      (addi i (broadcastInDim S8000000 ![] bcast_S_S8000000 (constantI S_ 32 1000000#32))) i)

/-- A node table read at each edge's node number. -/
def taken (x : FVec Ideal S1000000 .f32) (i : IVec S8000000 32) : FVec Ideal S8000000 .f32 :=
  Host.gather gather_S1000000_S8000000x1_S8000000_n_0_n_n_0_1_1 x (wrapped i)

/-- The reference as one function: the edge powers, each scaled by the time step, accumulated on the target nodes from zero. -/
def refPooled (T L D f : FVec Ideal S1000000 .f32) (k : FVec Ideal S8000000 .f32) (src tgt : IVec S8000000 32)
    (ts : FVec Ideal S_ .f32) : FVec Ideal S1000000 .f32 :=
  Host.scatterAdd scatter_S1000000_S8000000x1_S8000000_n_0_0_1
    (broadcastInDim S1000000 ![] bcast_S_S1000000 (constant (F := Ideal) S_ .f32 0x00000000#32))
    (broadcastInDim S8000000x1 ![0] bcast_S8000000_S8000000x1_0 tgt)
    (mulf (fun j => edgePower (taken T src j) (taken T tgt j) (taken L src j) (taken D src j) (taken f src j) (k j))
      (broadcastInDim S8000000 ![] bcast_S_S8000000 ts))

/-- The run's result term is that function of the inputs: the printed operations are entrywise differences, maxima and products
    in exactly the edge power's grouping. -/
theorem res_eq (m : (ℓ : Loc nD τ sig) → Buf (Elt Ideal) ℓ) (c : Dev nD) :
    Cert.ReferenceIdeal.Value.res_main_v52 m c
      = refPooled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.Value.res_main_v52 refPooled taken wrapped
  rfl

end Cert.ReferenceIdeal.Pool

end
-- ==== Proof.FiniteInputs.lean ====
/-
  What the precondition says, entry by entry: every entry of the five float tables and the time step is a real number.

  The precondition is the conjunction, over the six float inputs, of "every entry x has |x| < +∞". On the extended reals
  |x| = max(x, −x), and max(x, −x) < +∞ excludes x = +∞ and x = −∞, so x is a real number.
-/
import proofs.«109432_j1228360646896_1_alg».proof.Proof.Gen.Pre_finite_inputs
import proofs.«109432_j1228360646896_1_alg».proof.Proof.EdgeLaw
import Idealize.ShloMosaic.Lib.ValueIdx
import Idealize.ShloMosaic.Lib.ReduceAll
import Idealize.ShloMosaic.PureOps.Ideal.Laws

noncomputable section

namespace Cert.Pre_finite_inputs.Pool

open Idealize.ShloMosaic Idealize.ShloMosaic.ValueIdx
open Cert.Pre_finite_inputs Cert.Pre_finite_inputs.Facts Cert.Pool

/-- The scalar shape has one index. -/
local instance : Subsingleton S_.Idx := ⟨fun a b => funext fun d => d.elim0⟩

/-- The word 0x7F800000 is +∞. -/
theorem inf_word : Ideal.ofBits .f32 0x7F800000#32 = ⊤ := by simp [Ideal.ofBits, Ideal.ieee]

/-- An extended real whose absolute value max(x, −x) compares below +∞ is a real number. -/
theorem isReal_of_abs_lt (x : EReal) (h : Ideal.cmp .olt (max x (-x)) (Ideal.ofBits .f32 0x7F800000#32) = 1#1) : IsReal x := by
  rw [inf_word] at h
  have hlt : max x (-x) < ⊤ := by
    by_contra hc
    have h0 : Ideal.cmp .olt (max x (-x)) ⊤ = 0#1 := by
      show BitVec.ofBool (decide (max x (-x) < ⊤)) = 0#1
      rw [decide_eq_false hc]; rfl
    rw [h0] at h
    exact absurd h (by decide)
  induction x using EReal.rec with
  | bot => exact absurd hlt (by simp)
  | coe r => exact ⟨r, rfl⟩
  | top => exact absurd hlt (by simp)

/-- The precondition, opened: each float input's entries are real numbers (the two integer inputs are unconstrained). -/
theorem real_of_pre (a0 a1 a2 a3 : FVec Ideal S1000000 .f32) (a4 : FVec Ideal S8000000 .f32)
    (a5 a6 : IVec S8000000 32) (a7 : FVec Ideal S_ .f32)
    (h : fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a7 i)) := by
  have h0 := congrFun h ix0
  unfold fn fn_part1 at h0
  dsimp only at h0
  obtain ⟨h01234, h7⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h00, h1⟩ := IntOp.andi_eq_one.1 h01
  exact ⟨fun i => isReal_of_abs_lt _ (Host.reduce_andi_all _ _ _ _ ix0 h00 i),
    fun i => isReal_of_abs_lt _ (Host.reduce_andi_all _ _ _ _ ix0 h1 i),
    fun i => isReal_of_abs_lt _ (Host.reduce_andi_all _ _ _ _ ix0 h2 i),
    fun i => isReal_of_abs_lt _ (Host.reduce_andi_all _ _ _ _ ix0 h3 i),
    fun i => isReal_of_abs_lt _ (Host.reduce_andi_all _ _ _ _ ix0 h4 i),
    fun i => isReal_of_abs_lt _ (Host.reduce_andi_all _ _ _ _ ix0 h7 i)⟩

end Cert.Pre_finite_inputs.Pool

end
-- ==== Proof.Bridge.lean ====
/-
  The two programs compute one function of real inputs.

  The kernel's side: Σ over the edges landing on node n of the edge power, times the time step τ. The reference's side: Σ over the
  same edges of (edge power · τ). The kernel's edge powers are the reference's (the table layout is undone exactly, entry by entry);
  every edge power is a real number because every table entry read is one; τ is real; so the scale moves inside the sum. Which
  edges land on which node is the same question on both sides and is never answered.
-/
import proofs.«109432_j1228360646896_1_alg».proof.Proof.Layout
import proofs.«109432_j1228360646896_1_alg».proof.Proof.RefTerm
import proofs.«109432_j1228360646896_1_alg».proof.Proof.EdgeLaw
import Idealize.ShloMosaic.Lib.ValueIdx
import Idealize.ShloMosaic.Lib.IdealHost
import Idealize.ShloMosaic.PureOps.Ideal.Laws

noncomputable section

namespace Cert.Pool

open Idealize.ShloMosaic Idealize.ShloMosaic.ValueIdx
open Cert.KernelIdeal (S1000000 S8000000 S8000000x1 S_ S64000x128)

/-- The kernel's update list at edge j: the table layout undone, it is the edge power of the six lists' entries at j. -/
theorem kernel_update (T L D f : FVec Ideal S1000000 .f32) (k : FVec Ideal S8000000 .f32) (src tgt : IVec S8000000 32)
    (j : S8000000.Idx) :
    Cert.KernelIdeal.Pool.unlaid (fun i => edgePower
        (Cert.KernelIdeal.Pool.laidOut (Cert.KernelIdeal.Pool.taken T src) i)
        (Cert.KernelIdeal.Pool.laidOut (Cert.KernelIdeal.Pool.taken T tgt) i)
        (Cert.KernelIdeal.Pool.laidOut (Cert.KernelIdeal.Pool.taken L src) i)
        (Cert.KernelIdeal.Pool.laidOut (Cert.KernelIdeal.Pool.taken D src) i)
        (Cert.KernelIdeal.Pool.laidOut (Cert.KernelIdeal.Pool.taken f src) i)
        (Cert.KernelIdeal.Pool.laidOut k i)) j
      = edgePower (Cert.KernelIdeal.Pool.taken T src j) (Cert.KernelIdeal.Pool.taken T tgt j)
          (Cert.KernelIdeal.Pool.taken L src j) (Cert.KernelIdeal.Pool.taken D src j)
          (Cert.KernelIdeal.Pool.taken f src j) (k j) := by
  rw [eq_ix1 j]
  exact Cert.KernelIdeal.Pool.unlaid_power _ _ _ _ _ _ (j 0)

/-- A table of reals read at node numbers is a list of reals. -/
theorem taken_isReal (x : FVec Ideal S1000000 .f32) (i : IVec S8000000 32) (hx : ∀ n, IsReal (x n)) (j : S8000000.Idx) :
    IsReal (Cert.KernelIdeal.Pool.taken x i j) := by
  obtain ⟨n, hn⟩ := Cert.KernelIdeal.Pool.taken_entry x i j
  rw [hn]; exact hx n

/-- The scale law with the scaled update list named: if u'ⱼ = uⱼ · τ for every j, scaling the accumulated result by τ is
    accumulating u'. -/
theorem host_scatterAdd_scale_to {s si su : Shape} (d : ScatterDims s si su) {w : Nat} (z : FVec Ideal s .f32) (idx : IVec si w)
    (u u' : FVec Ideal su .f32) (t : EReal) (hz : ∀ i, z i = 0) (hu : ∀ j, IsReal (u j)) (hu' : ∀ j, u j * t = u' j)
    (ht : IsReal t) (i : s.Idx) :
    Host.scatterAdd d z idx u i * t = Host.scatterAdd d z idx u' i := by
  have e : (fun j => u j * t) = u' := funext hu'
  rw [host_scatterAdd_scale d z idx u t hz hu ht i, e]

/-- On real inputs the kernel's function is the reference's. -/
theorem pooled_eq (T L D f : FVec Ideal S1000000 .f32) (k : FVec Ideal S8000000 .f32) (src tgt : IVec S8000000 32)
    (ts : FVec Ideal S_ .f32) (hT : ∀ n, IsReal (T n)) (hL : ∀ n, IsReal (L n)) (hD : ∀ n, IsReal (D n))
    (hf : ∀ n, IsReal (f n)) (hk : ∀ e, IsReal (k e)) (hts : ∀ i, IsReal (ts i)) :
    Cert.KernelIdeal.Pool.pooled T L D f k src tgt ts = Cert.ReferenceIdeal.Pool.refPooled T L D f k src tgt ts := by
  funext n
  unfold Cert.KernelIdeal.Pool.pooled
  rw [mulf_apply, broadcastInDim_scalar_apply]
  refine (host_scatterAdd_scale_to _ _ _ _
    (mulf (fun j => edgePower (Cert.ReferenceIdeal.Pool.taken T src j) (Cert.ReferenceIdeal.Pool.taken T tgt j) (Cert.ReferenceIdeal.Pool.taken L src j) (Cert.ReferenceIdeal.Pool.taken D src j)
        (Cert.ReferenceIdeal.Pool.taken f src j) (k j))
      (broadcastInDim Cert.ReferenceIdeal.S8000000 ![] Cert.ReferenceIdeal.Facts₀.bcast_S_S8000000 ts))
    _ ?_ ?_ ?_ (hts ix0) n).trans ?_
  · intro i
    rw [broadcastInDim_scalar_apply, constant_apply]
    exact Ideal.ofBits_zero_f32
  · intro j
    rw [kernel_update T L D f k src tgt j]
    exact edgePower_isReal (taken_isReal T src hT j) (taken_isReal T tgt hT j) (taken_isReal L src hL j)
      (taken_isReal D src hD j) (taken_isReal f src hf j) (hk j)
  · intro j
    rw [kernel_update T L D f k src tgt j, mulf_apply, broadcastInDim_scalar_apply]
    rfl
  · rfl

end Cert.Pool

end
-- ==== Proof.lean ====
/-
  The certificate: a kernel that computes per-edge heat-transfer power in one tiled region and pools it onto nodes, against the
  plain formulation.

  Both programs read five node tables at the edges' source or target node, form for each edge
      p(e) = max(Tₛ − Tₜ, 0) · k(e) · ½ · (L · D · π̃ · f) · Tₜ³,
  and sum p over the edges of each target node. The kernel lays the edge lists out as 64000 × 128 tables (padding 8 000 000 up to
  8 192 000), computes p in 16 row blocks of 4000, reads the table back as a list, sums per node and THEN scales by the time step τ;
  the reference scales each p(e) by τ and sums. The layout is a bijection on the first 8 000 000 entries, so the kernel's list of
  powers is the reference's; and (Σ p(e)) · τ = Σ (p(e) · τ) because, under the precondition, every table entry, hence every
  p(e), and τ are real numbers — on the extended reals the law would fail with infinite summands of both signs.

  The three frames: the kernel's two are the generated frame certificates; the reference's is its generated run with the result
  dropped. The ideal pass rewrote nothing, so there is nothing to preserve.
-/
import proofs.«109432_j1228360646896_1_alg».proof.Defs
import proofs.«109432_j1228360646896_1_alg».proof.Proof.Gen.Kernel
import proofs.«109432_j1228360646896_1_alg».proof.Proof.Gen.Kernel.Frame
import proofs.«109432_j1228360646896_1_alg».proof.Proof.Gen.KernelIdeal
import proofs.«109432_j1228360646896_1_alg».proof.Proof.Gen.KernelIdeal.Frame
import proofs.«109432_j1228360646896_1_alg».proof.Proof.Gen.ReferenceIdeal
import proofs.«109432_j1228360646896_1_alg».proof.Proof.Gen.ReferenceIdeal.Run
import proofs.«109432_j1228360646896_1_alg».proof.Proof.Gen.Pre_finite_inputs
import proofs.«109432_j1228360646896_1_alg».proof.Proof.KernelRun
import proofs.«109432_j1228360646896_1_alg».proof.Proof.RefTerm
import proofs.«109432_j1228360646896_1_alg».proof.Proof.FiniteInputs
import proofs.«109432_j1228360646896_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the node sums of the edge powers scaled by the time step: the kernel's run ends at its
    function of the inputs, the reference's at its own, and on the real inputs the precondition admits the two are one. -/
theorem algebraic : Cert.algebraic_KernelIdeal_ReferenceIdeal := by
  intro m ρ m' ρ' hpre hagree
  refine ⟨fun c => Cert.KernelIdeal.Pool.pooled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Pool.res_eq m' c, (hagree c).1, (hagree c).2.1, (hagree c).2.2.1, (hagree c).2.2.2.1,
    (hagree c).2.2.2.2.1, (hagree c).2.2.2.2.2.1, (hagree c).2.2.2.2.2.2.1, (hagree c).2.2.2.2.2.2.2]
  obtain ⟨hT, hL, hD, hf, hk, hts⟩ := Cert.Pre_finite_inputs.Pool.real_of_pre _ _ _ _ _ _ _ _ (hpre c)
  exact (Cert.Pool.pooled_eq _ _ _ _ _ _ _ _ hT hL hD hf hk hts).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
